-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S640000x16 : Shape := ⟨2, ![640000, 16]⟩
abbrev S128x128 : Shape := ⟨2, ![128, 128]⟩
abbrev S128 : Shape := ⟨1, ![128]⟩
abbrev S16x128 : Shape := ⟨2, ![16, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000x16 : S_.BroadcastsInDim S640000x16 (![] : Fin 0 → Fin S640000x16.rank)
  reducesTo_S640000x16_S_d0_1 : S640000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S16x128 .f32) (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S16x128 .f32 := Host.absf main_arg5
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x640000 32) (main_arg2 : FVec F S640000x16 .f32) (main_arg3 : FVec F S128x128 .f32) (main_arg4 : FVec F S128 .f32) (main_arg5 : FVec F S16x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000x16 .f32 := Host.absf main_arg2
  let main_cst_0 : FVec F S_ .f32 := constant S_ .f32 0x7F800000#32
  let main_v5 : FVec F S640000x16 .f32 := broadcastInDim S640000x16 ![] bcast_S_S640000x16 main_cst_0
  let main_v6 : IVec S640000x16 1 := cmpf .olt main_v4 main_v5
  let main_c_1 : IVec S_ 1 := constantI S_ 1 1#1
  let main_v7 : IVec S_ 1 := (fun x v => Host.reduce IntOp.andi x v reducesTo_S640000x16_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x640000 : Shape := ⟨2, ![2, 640000]⟩
abbrev S640000x16 : Shape := ⟨2, ![640000, 16]⟩
abbrev S128x128 : Shape := ⟨2, ![128, 128]⟩
abbrev S128 : Shape := ⟨1, ![128]⟩
abbrev S16x128 : Shape := ⟨2, ![16, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S5000x128 : Shape := ⟨2, ![5000, 128]⟩
abbrev S5000x16 : Shape := ⟨2, ![5000, 16]⟩

abbrev nBuf : Space → Nat
  | .hbm => 34
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S640000x16, .f32⟩
  | .hbm, ⟨3, _⟩ => ⟨S128x128, .f32⟩
  | .hbm, ⟨4, _⟩ => ⟨S128, .f32⟩
  | .hbm, ⟨5, _⟩ => ⟨S16x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S640000x128, .f32⟩
  | .hbm, ⟨28, _⟩ => ⟨S_, .f32⟩
  | .hbm, ⟨29, _⟩ => ⟨S100000x128, .f32⟩
  | .hbm, ⟨30, _⟩ => ⟨S640000x1, .i32⟩
  | .hbm, ⟨31, _⟩ => ⟨S100000x128, .f32⟩
  | .hbm, ⟨32, _⟩ => ⟨S1x128, .f32⟩
  | .hbm, ⟨33, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x16, .f32⟩
  | .local _ .vmem, ⟨3, _⟩ => ⟨S5000x16, .f32⟩
  | .local _ .vmem, ⟨4, _⟩ => ⟨S128x128, .f32⟩
  | .local _ .vmem, ⟨5, _⟩ => ⟨S1x128, .f32⟩
  | .local _ .vmem, ⟨6, _⟩ => ⟨S16x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S5000x16_S5000x16_0_0 : ∀ a, (![0, 0] : Fin 2 → Nat) a + S5000x16.size a ≤ S5000x16.size a
  h_S5000x16 : 0 < S5000x16.numel
  inb_S128x128_S128x128_0_0 : ∀ a, (![0, 0] : Fin 2 → Nat) a + S128x128.size a ≤ S128x128.size a
  h_S128x128 : 0 < S128x128.numel
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000x128 : S_.BroadcastsInDim S100000x128 (![] : Fin 0 → Fin S100000x128.rank)
  gather_S100000x128_S640000x1_S640000x128_1_0_n_n_0_1_1128_wf : GatherDims.WF S100000x128 S640000x1 S640000x128 [1] [0] [] [0] [] 1 ![1, 128]
  dot_S5000x16_S16x128_S5000x128_1_0_0_1_n_n_wf : DotDims.WF S5000x16 S16x128 S5000x128 [1] [0] [0] [1] [] []
  dot_S5000x128_S128x128_S5000x128_1_0_0_1_n_n_wf : DotDims.WF S5000x128 S128x128 S5000x128 [1] [0] [0] [1] [] []
  scatter_S100000x128_S640000x1_S640000x128_1_0_0_1_wf : ScatterDims.WF S100000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S640000x128.size a
  hwx0_0 : ∀ i : grid0.Coords, EltTy.bits .f32 = 32 ∨ (Rect.block (s := S640000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S640000x16.size a
  hwx0_1 : ∀ i : grid0.Coords, EltTy.bits .f32 = 32 ∨ (Rect.block (s := S640000x16) S5000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S16x128.size a
  hwx0_4 : ∀ i : grid0.Coords, EltTy.bits .f32 = 32 ∨ (Rect.block (s := S16x128) S16x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S640000x128.size a
  hwx0_8 : ∀ i : grid0.Coords, EltTy.bits .f32 = 32 ∨ (Rect.block (s := S640000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

abbrev win0_0 : Pipeline.Window sig grid0 :=
  Pipeline.Window.ofSpec (Memref.whole main_v10) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S16x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S640000x16 : Shape := ⟨2, ![640000, 16]⟩
abbrev S128x128 : Shape := ⟨2, ![128, 128]⟩
abbrev S128 : Shape := ⟨1, ![128]⟩
abbrev S16x128 : Shape := ⟨2, ![16, 128]⟩
abbrev S1x640000 : Shape := ⟨2, ![1, 640000]⟩
abbrev S640000 : Shape := ⟨1, ![640000]⟩
abbrev S640000x128 : Shape := ⟨2, ![640000, 128]⟩
abbrev S1x128 : Shape := ⟨2, ![1, 128]⟩
abbrev S_ : Shape := ⟨0, ![]⟩
abbrev S640000x1 : Shape := ⟨2, ![640000, 1]⟩

abbrev nBuf : Space → Nat
  | .hbm => 54
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S640000x16, .f32⟩
  | .hbm, ⟨3, _⟩ => ⟨S128x128, .f32⟩
  | .hbm, ⟨4, _⟩ => ⟨S128, .f32⟩
  | .hbm, ⟨5, _⟩ => ⟨S16x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S640000x128, .f32⟩
  | .hbm, ⟨16, _⟩ => ⟨S1x128, .f32⟩
  | .hbm, ⟨17, _⟩ => ⟨S640000x128, .f32⟩
  | .hbm, ⟨18, _⟩ => ⟨S640000x128, .f32⟩
  | .hbm, ⟨19, _⟩ => ⟨S640000x128, .f32⟩
  | .hbm, ⟨20, _⟩ => ⟨S640000x128, .f32⟩
  | .hbm, ⟨21, _⟩ => ⟨S_, .f32⟩
  | .hbm, ⟨22, _⟩ => ⟨S640000x128, .f32⟩
  | .hbm, ⟨23, _⟩ => ⟨S640000x128, .f32⟩
  | .hbm, ⟨24, _⟩ => ⟨S_, .f32⟩
  | .hbm, ⟨25, _⟩ => ⟨S640000x128, .f32⟩
  | .hbm, ⟨26, _⟩ => ⟨S640000x128, .f32⟩
  | .hbm, ⟨27, _⟩ => ⟨S640000x128, .f32⟩
  | .hbm, ⟨28, _⟩ => ⟨S640000x128, .f32⟩
  | .hbm, ⟨29, _⟩ => ⟨S1x128, .f32⟩
  | .hbm, ⟨30, _⟩ => ⟨S640000x128, .f32⟩
  | .hbm, ⟨31, _⟩ => ⟨S640000x128, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x128, .f32⟩
  | .hbm, ⟨41, _⟩ => ⟨S640000x128, .f32⟩
  | .hbm, ⟨42, _⟩ => ⟨S1x128, .f32⟩
  | .hbm, ⟨43, _⟩ => ⟨S640000x128, .f32⟩
  | .hbm, ⟨44, _⟩ => ⟨S640000x128, .f32⟩
  | .hbm, ⟨45, _⟩ => ⟨S640000x128, .f32⟩
  | .hbm, ⟨46, _⟩ => ⟨S_, .f32⟩
  | .hbm, ⟨47, _⟩ => ⟨S100000x128, .f32⟩
  | .hbm, ⟨48, _⟩ => ⟨S640000x1, .i32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  dot_S640000x16_S16x128_S640000x128_1_0_0_1_n_n_wf : DotDims.WF S640000x16 S16x128 S640000x128 [1] [0] [0] [1] [] []
  dot_S640000x128_S128x128_S640000x128_1_0_0_1_n_n_wf : DotDims.WF S640000x128 S128x128 S640000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def dot_S640000x16_S16x128_S640000x128_1_0_0_1_n_n : DotDims S640000x16 S16x128 S640000x128 where
  lhsContracting := [1]
  rhsContracting := [0]
  lhsNonContracting := [0]
  rhsNonContracting := [1]
  lhsBatch := []
  rhsBatch := []
  wf := dot_S640000x16_S16x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics both programs compute, stated once over plain index functions on the extended reals.

  A continuous-filter convolution layer on a graph: every edge `e` carries a radial-basis feature row, which a
  two-layer filter network (a linear map, the activation `z · σ(z)`, a second linear map) turns into a filter row;
  the edge's message is the source node's projected feature row times that filter row, entry by entry
  (`msgAt`). Messages are then summed into their destination nodes (the scatter-add both programs share, which is
  never opened here) and the node rows go through a last linear map (`outAt`).

  Both functions are ROW-LOCAL: row `p` of the result reads only row `p` of the row-indexed operands. That is what
  lets a program that works through the rows block by block agree with one that works on the whole array
  (`msgAt_of_rows`, `outAt_of_rows`).
-/
import Idealize.ShloMosaic.PureOps.Ideal
import Idealize.ShloMosaic.PureOps.Ideal.Laws
import Idealize.ShloMosaic.Lib.ValueIdx

noncomputable section

open scoped BigOperators

namespace Cert.FilterConv

open Idealize.ShloMosaic Idealize.ShloMosaic.ValueIdx

/-- The activation `z · σ(z)` with `σ(z) = 1 / (1 + e^(-z))`, on the extended reals. -/
def silu (z : EReal) : EReal := z * Ideal.logistic z

/-- The word of the float `1.0` denotes the real number one. -/
theorem one_f32 : Ideal.ofBits .f32 0x3F800000#32 = 1 := by
  simp [Ideal.ofBits, Ideal.ieee, -EReal.coe_mul]; norm_num

/-- The activation spelt with a quotient, `z · (1 / (1 + e^(-z)))` with both ones the float `1.0`, is `silu`:
    the logistic function IS that quotient. -/
theorem silu_of_quotient (z : EReal) :
    z * Ideal.div (Ideal.ofBits .f32 0x3F800000#32) (Ideal.ofBits .f32 0x3F800000#32 + Ideal.exp (-z)) = silu z := by
  rw [one_f32]; rfl

/-- One entry of an edge message: for row `p` (an edge) and output channel `q`,
    `(Σₖ xg[p,k]·W1[k,q] + b1[q]) · (Σₖ silu(Σᵣ rbf[p,r]·Wf1[r,k] + bf1[k])·Wf2[k,q] + bf2[q])`. -/
def msgAt {R : Nat} (xg : (⟨2, ![R, 128]⟩ : Shape).Idx → EReal) (rbf : (⟨2, ![R, 16]⟩ : Shape).Idx → EReal)
    (W1 : (⟨2, ![128, 128]⟩ : Shape).Idx → EReal) (b1 : Fin 128 → EReal)
    (Wf1 : (⟨2, ![16, 128]⟩ : Shape).Idx → EReal) (bf1 : Fin 128 → EReal)
    (Wf2 : (⟨2, ![128, 128]⟩ : Shape).Idx → EReal) (bf2 : Fin 128 → EReal) (p : Fin R) (q : Fin 128) : EReal :=
  ((∑ k : Fin 128, xg (ix2 p k) * W1 (ix2 k q)) + b1 q)
    * ((∑ k : Fin 128, silu ((∑ r : Fin 16, rbf (ix2 p r) * Wf1 (ix2 r k)) + bf1 k) * Wf2 (ix2 k q)) + bf2 q)

/-- The messages of all rows as one array. -/
def msg {R : Nat} (xg : (⟨2, ![R, 128]⟩ : Shape).Idx → EReal) (rbf : (⟨2, ![R, 16]⟩ : Shape).Idx → EReal)
    (W1 : (⟨2, ![128, 128]⟩ : Shape).Idx → EReal) (b1 : Fin 128 → EReal)
    (Wf1 : (⟨2, ![16, 128]⟩ : Shape).Idx → EReal) (bf1 : Fin 128 → EReal)
    (Wf2 : (⟨2, ![128, 128]⟩ : Shape).Idx → EReal) (bf2 : Fin 128 → EReal) : (⟨2, ![R, 128]⟩ : Shape).Idx → EReal :=
  fun i => msgAt xg rbf W1 b1 Wf1 bf1 Wf2 bf2 (i 0) (i 1)

/-- Row-locality of the message: if row `p` of a block is row `p'` of the whole arrays, the entries agree. -/
theorem msgAt_of_rows {R R' : Nat} (xgB : (⟨2, ![R, 128]⟩ : Shape).Idx → EReal) (rbfB : (⟨2, ![R, 16]⟩ : Shape).Idx → EReal)
    (xg : (⟨2, ![R', 128]⟩ : Shape).Idx → EReal) (rbf : (⟨2, ![R', 16]⟩ : Shape).Idx → EReal)
    (W1 : (⟨2, ![128, 128]⟩ : Shape).Idx → EReal) (b1 : Fin 128 → EReal)
    (Wf1 : (⟨2, ![16, 128]⟩ : Shape).Idx → EReal) (bf1 : Fin 128 → EReal)
    (Wf2 : (⟨2, ![128, 128]⟩ : Shape).Idx → EReal) (bf2 : Fin 128 → EReal) (p : Fin R) (p' : Fin R') (q : Fin 128)
    (hx : ∀ k : Fin 128, xgB (ix2 p k) = xg (ix2 p' k)) (hr : ∀ r : Fin 16, rbfB (ix2 p r) = rbf (ix2 p' r)) :
    msgAt xgB rbfB W1 b1 Wf1 bf1 Wf2 bf2 p q = msgAt xg rbf W1 b1 Wf1 bf1 Wf2 bf2 p' q := by
  unfold msgAt
  simp only [hx, hr]

/-- One entry of the last linear map: `Σₖ agg[p,k]·W2[k,q] + b2[q]`. -/
def outAt {R : Nat} (agg : (⟨2, ![R, 128]⟩ : Shape).Idx → EReal) (W2 : (⟨2, ![128, 128]⟩ : Shape).Idx → EReal)
    (b2 : Fin 128 → EReal) (p : Fin R) (q : Fin 128) : EReal :=
  (∑ k : Fin 128, agg (ix2 p k) * W2 (ix2 k q)) + b2 q

/-- The last linear map over all rows as one array. -/
def out {R : Nat} (agg : (⟨2, ![R, 128]⟩ : Shape).Idx → EReal) (W2 : (⟨2, ![128, 128]⟩ : Shape).Idx → EReal)
    (b2 : Fin 128 → EReal) : (⟨2, ![R, 128]⟩ : Shape).Idx → EReal :=
  fun i => outAt agg W2 b2 (i 0) (i 1)

/-- Row-locality of the last linear map. -/
theorem outAt_of_rows {R R' : Nat} (aggB : (⟨2, ![R, 128]⟩ : Shape).Idx → EReal) (agg : (⟨2, ![R', 128]⟩ : Shape).Idx → EReal)
    (W2 : (⟨2, ![128, 128]⟩ : Shape).Idx → EReal) (b2 : Fin 128 → EReal) (p : Fin R) (p' : Fin R') (q : Fin 128)
    (hx : ∀ k : Fin 128, aggB (ix2 p k) = agg (ix2 p' k)) :
    outAt aggB W2 b2 p q = outAt agg W2 b2 p' q := by
  unfold outAt
  simp only [hx]

end Cert.FilterConv

end
-- ==== Proof.KernelBody.lean ====
/-
  What each kernel stores for one block of 5000 rows, read at one entry, over the extended reals.

  The edge kernel's stored value at row `p`, channel `q` is the message entry `msgAt … p q` of the blocks it
  loaded; the node kernel's is `outAt … p q`. A narrowing of the float format is the identity here, a matrix product
  accumulated from the zero array is the plain sum over the contracted axis (re-indexed from the product's own
  contraction index to `Fin 16` or `Fin 128`), a bias row broadcast down the rows reads its entry `(0, q)`, and the
  activation `z · σ(z)` is `silu z`.
-/
import proofs.«163697_j89567247990894_1_alg».proof.Proof.Gen.KernelIdeal.Skeleton
import proofs.«163697_j89567247990894_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.FilterConv

/-! ## The two matrix products at an index

Both products contract the left operand's second axis with the right operand's first. The operand indices the
product reads at result index `(p, q)` and contracted position `k` are `(p, k)` and `(k, q)`: axis by axis below,
first for the product that contracts 16 positions, then for the one that contracts 128. -/

/-- Left operand, axis 0: the row coordinate of the result. -/
theorem lhs16_0 (i : S5000x128.Idx) (c : dot_S5000x16_S16x128_S5000x128_1_0_0_1_n_n.contr.Idx) :
    (dot_S5000x16_S16x128_S5000x128_1_0_0_1_n_n.lhsIdx i c 0).val = (i 0).val := by
  unfold DotDims.lhsIdx
  rw [dif_neg (show ¬(0 : Fin S5000x16.rank) ∈ dot_S5000x16_S16x128_S5000x128_1_0_0_1_n_n.lhsBatch by decide), dif_pos (show (0 : Fin S5000x16.rank) ∈ dot_S5000x16_S16x128_S5000x128_1_0_0_1_n_n.lhsNonContracting by decide)]
  rfl
/-- Left operand, axis 1: the contracted coordinate. -/
theorem lhs16_1 (i : S5000x128.Idx) (c : dot_S5000x16_S16x128_S5000x128_1_0_0_1_n_n.contr.Idx) :
    (dot_S5000x16_S16x128_S5000x128_1_0_0_1_n_n.lhsIdx i c 1).val = (c ⟨0, by decide⟩).val :=
  dot_S5000x16_S16x128_S5000x128_1_0_0_1_n_n.lhsIdx_val_of_single rfl i c
/-- Right operand, axis 0: the contracted coordinate. -/
theorem rhs16_0 (i : S5000x128.Idx) (c : dot_S5000x16_S16x128_S5000x128_1_0_0_1_n_n.contr.Idx) :
    (dot_S5000x16_S16x128_S5000x128_1_0_0_1_n_n.rhsIdx i c 0).val = (c ⟨0, by decide⟩).val :=
  dot_S5000x16_S16x128_S5000x128_1_0_0_1_n_n.rhsIdx_val_of_single rfl i c
/-- Right operand, axis 1: the column coordinate of the result. -/
theorem rhs16_1 (i : S5000x128.Idx) (c : dot_S5000x16_S16x128_S5000x128_1_0_0_1_n_n.contr.Idx) :
    (dot_S5000x16_S16x128_S5000x128_1_0_0_1_n_n.rhsIdx i c 1).val = (i 1).val := by
  unfold DotDims.rhsIdx
  rw [dif_neg (show ¬(1 : Fin S16x128.rank) ∈ dot_S5000x16_S16x128_S5000x128_1_0_0_1_n_n.rhsBatch by decide), dif_pos (show (1 : Fin S16x128.rank) ∈ dot_S5000x16_S16x128_S5000x128_1_0_0_1_n_n.rhsNonContracting by decide)]
  rfl

/-- A matrix product into the zero accumulator, read at row `p` and column `q`: the sum over the 16 contracted
    positions of the left operand's row entry times the right operand's column entry. -/
theorem matmul16_apply {φ₁ φ₂ : FTy} (l : FVec Ideal S5000x16 φ₁) (r : FVec Ideal S16x128 φ₂) (p : Fin 5000) (q : Fin 128) :
    matmul (F := Ideal) dot_S5000x16_S16x128_S5000x128_1_0_0_1_n_n none l r (constant (F := Ideal) S5000x128 .f32 0x00000000#32) (ix2 p q)
      = ∑ k : Fin 16, l (ix2 p k) * r (ix2 k q) := by
  simp only [matmul]
  rw [Ideal.matmul_constant_zero_apply, ← Equiv.sum_comp (contrEquiv1 dot_S5000x16_S16x128_S5000x128_1_0_0_1_n_n 16 rfl rfl).symm]
  refine Finset.sum_congr rfl fun k _ => ?_
  have hk := contrEquiv1_symm_val dot_S5000x16_S16x128_S5000x128_1_0_0_1_n_n 16 rfl rfl k
  have el : dot_S5000x16_S16x128_S5000x128_1_0_0_1_n_n.lhsIdx (ix2 p q) ((contrEquiv1 dot_S5000x16_S16x128_S5000x128_1_0_0_1_n_n 16 rfl rfl).symm k) = ix2 p k := funext fun a => Fin.ext (by
    match a with
    | ⟨0, _⟩ => exact lhs16_0 _ _
    | ⟨1, _⟩ => exact (lhs16_1 _ _).trans hk)
  have er : dot_S5000x16_S16x128_S5000x128_1_0_0_1_n_n.rhsIdx (ix2 p q) ((contrEquiv1 dot_S5000x16_S16x128_S5000x128_1_0_0_1_n_n 16 rfl rfl).symm k) = ix2 k q := funext fun a => Fin.ext (by
    match a with
    | ⟨0, _⟩ => exact (rhs16_0 _ _).trans hk
    | ⟨1, _⟩ => exact rhs16_1 _ _)
  rw [el, er]

/-- Left operand, axis 0: the row coordinate of the result. -/
theorem lhs128_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Left operand, axis 1: the contracted coordinate. -/
theorem lhs128_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- Right operand, axis 0: the contracted coordinate. -/
theorem rhs128_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- Right operand, axis 1: the column coordinate of the result. -/
theorem rhs128_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix product into the zero accumulator, read at row `p` and column `q`: the sum over the 128 contracted
    positions of the left operand's row entry times the right operand's column entry. -/
theorem matmul128_apply {φ₁ φ₂ : FTy} (l : FVec Ideal S5000x128 φ₁) (r : FVec Ideal S128x128 φ₂) (p : Fin 5000) (q : Fin 128) :
    matmul (F := Ideal) dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-! ## The two payloads at an index -/

/-- What the edge kernel stores for a block of 5000 edges, read at row `p` and channel `q`: the message entry of
    that row, the three bias rows read off their `[1, 128]` blocks. -/
theorem pay_edge (x0 : Vec Ideal S5000x128 .f32) (x1 : Vec Ideal S5000x16 .f32) (w1 : Vec Ideal S128x128 .f32)
    (wf1 : Vec Ideal S16x128 .f32) (wf2 : Vec Ideal S128x128 .f32) (bf1 bf2 b1 : Vec Ideal S1x128 .f32)
    (p : Fin 5000) (q : Fin 128) :
    k0_pay1 (F := Ideal) x0 x1 w1 wf1 wf2 bf1 bf2 b1 (ix2 p q)
      = msgAt x0 x1 w1 (fun j => b1 (ix2 (0 : Fin 1) j)) wf1 (fun j => bf1 (ix2 (0 : Fin 1) j)) wf2
          (fun j => bf2 (ix2 (0 : Fin 1) j)) p q := by
  unfold k0_pay1
  simp only [mulf_apply, addf_apply, matmul128_apply, matmul16_apply, truncf_apply, shapeCast_self,
    broadcastTo_1b_ab_apply, logistic, Ideal.logistic_def]
  -- what is left is the message entry with the activation spelt out as `z · σ(z)`
  rfl

/-- What the node kernel stores for a block of 5000 nodes, read at row `p` and channel `q`. -/
theorem pay_node (x0 : Vec Ideal S5000x128 .f32) (w2 : Vec Ideal S128x128 .f32) (b2 : Vec Ideal S1x128 .f32)
    (p : Fin 5000) (q : Fin 128) :
    k1_pay1 (F := Ideal) x0 w2 b2 (ix2 p q) = outAt x0 w2 (fun j => b2 (ix2 (0 : Fin 1) j)) p q := by
  unfold k1_pay1
  simp only [addf_apply, matmul128_apply, truncf_apply, shapeCast_self, broadcastTo_1b_ab_apply]
  rfl

end Cert.KernelIdeal.Body

end
-- ==== Proof.KernelRegions.lean ====
/-
  What each of the two grid regions leaves in its output array, as ONE function of the arrays the region found.

  A region works through its rows in blocks of 5000: at grid point `t` it reads rows `5000·t … 5000·t + 4999` of the
  row-indexed operands and the whole of every weight matrix and bias row, and writes the same rows of the output.
  Because the message and the last linear map are row-local (`msgAt_of_rows`, `outAt_of_rows`), what point `t`
  writes is block `t` of the whole-array function; the 128 (resp. 20) blocks tile the array, so the array ends
  holding that function.
-/
import proofs.«163697_j89567247990894_1_alg».proof.Proof.Gen.KernelIdeal.Frame
import proofs.«163697_j89567247990894_1_alg».proof.Proof.KernelBody
import Idealize.ShloMosaic.Lib.Pipeline.Value

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx Cert.FilterConv Cert.KernelIdeal.Body
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first region: edge messages -/

/-- The block indices of the first region's windows at point `t`: the row-indexed windows (gathered rows, edge
    features, messages) are at row block `t`, every other window at its one block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The input blocks of the first region at point `t`, each at its literal shape. -/
abbrev xgB (c : Dev nD) (t : Fin cfg0.N) : Vec Ideal S5000x128 .f32 := iblk0 V c 0 t
abbrev rbfB (c : Dev nD) (t : Fin cfg0.N) : Vec Ideal S5000x16 .f32 := iblk0 V c 1 t
abbrev w1B (c : Dev nD) (t : Fin cfg0.N) : Vec Ideal S128x128 .f32 := iblk0 V c 2 t
abbrev b1B (c : Dev nD) (t : Fin cfg0.N) : Vec Ideal S1x128 .f32 := iblk0 V c 3 t
abbrev wf1B (c : Dev nD) (t : Fin cfg0.N) : Vec Ideal S16x128 .f32 := iblk0 V c 4 t
abbrev bf1B (c : Dev nD) (t : Fin cfg0.N) : Vec Ideal S1x128 .f32 := iblk0 V c 5 t
abbrev wf2B (c : Dev nD) (t : Fin cfg0.N) : Vec Ideal S128x128 .f32 := iblk0 V c 6 t
abbrev bf2B (c : Dev nD) (t : Fin cfg0.N) : Vec Ideal S1x128 .f32 := iblk0 V c 7 t

/-- Row `p` of the gathered-rows block at point `t` is row `5000·t + p` of the gathered array. -/
theorem xgB_apply (c : Dev nD) (t : Fin cfg0.N) (p : Fin 5000) (k : Fin 128) (p' : Fin 640000)
    (hp : p'.val = 5000 * t.val + p.val) :
    xgB V c t (ix2 p k) = (V c main_v10 : S640000x128.Idx → EReal) (ix2 p' k) := by
  obtain ⟨e0, e1, -⟩ := idx0 t
  unfold xgB iblk0
  rw [View.read_apply]
  show V c main_v10 _ = V c main_v10 _
  congr 1
  funext a
  apply Fin.ext
  match a with
  | ⟨0, _⟩ => show win0_0.index t (0 : Fin 2) * 5000 + 1 * p.val = p'.val; rw [e0, hp]; omega
  | ⟨1, _⟩ => show win0_0.index t (1 : Fin 2) * 128 + 1 * k.val = k.val; rw [e1]; omega

/-- Row `p` of the edge-feature block at point `t` is row `5000·t + p` of the edge features. -/
theorem rbfB_apply (c : Dev nD) (t : Fin cfg0.N) (p : Fin 5000) (r : Fin 16) (p' : Fin 640000)
    (hp : p'.val = 5000 * t.val + p.val) :
    rbfB V c t (ix2 p r) = (V c main_arg2 : S640000x16.Idx → EReal) (ix2 p' r) := by
  obtain ⟨-, -, e0, e1, -⟩ := idx0 t
  unfold rbfB iblk0
  rw [View.read_apply]
  show V c main_arg2 _ = V c main_arg2 _
  congr 1
  funext a
  apply Fin.ext
  match a with
  | ⟨0, _⟩ => show win0_1.index t (0 : Fin 2) * 5000 + 1 * p.val = p'.val; rw [e0, hp]; omega
  | ⟨1, _⟩ => show win0_1.index t (1 : Fin 2) * 16 + 1 * r.val = r.val; rw [e1]; omega

/-- A resident window's block (a weight matrix or a bias row: one block, at index zero) is its whole array. -/
theorem w1B_eq (c : Dev nD) (t : Fin cfg0.N) : w1B V c t = (V c main_arg3 : S128x128.Idx → EReal) := by
  obtain ⟨-, -, -, -, e0, e1, -⟩ := idx0 t
  unfold w1B iblk0
  funext y
  rw [View.read_apply]
  show V c main_arg3 _ = V c main_arg3 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega
theorem b1B_eq (c : Dev nD) (t : Fin cfg0.N) : b1B V c t = (V c main_v11 : S1x128.Idx → EReal) := by
  obtain ⟨-, -, -, -, -, -, e0, e1, -⟩ := idx0 t
  unfold b1B iblk0
  funext y
  rw [View.read_apply]
  show V c main_v11 _ = V c main_v11 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega
theorem wf1B_eq (c : Dev nD) (t : Fin cfg0.N) : wf1B V c t = (V c main_arg5 : S16x128.Idx → EReal) := by
  obtain ⟨-, -, -, -, -, -, -, -, e0, e1, -⟩ := idx0 t
  unfold wf1B iblk0
  funext y
  rw [View.read_apply]
  show V c main_arg5 _ = V c main_arg5 _
  congr 1
  funext a
  apply Fin.ext
  match a with
  | ⟨0, _⟩ => show win0_4.index t (0 : Fin 2) * 16 + 1 * (y 0).val = (y 0).val; rw [e0]; omega
  | ⟨1, _⟩ => show win0_4.index t (1 : Fin 2) * 128 + 1 * (y 1).val = (y 1).val; rw [e1]; omega
theorem bf1B_eq (c : Dev nD) (t : Fin cfg0.N) : bf1B V c t = (V c main_v12 : S1x128.Idx → EReal) := by
  obtain ⟨-, -, -, -, -, -, -, -, -, -, e0, e1, -⟩ := idx0 t
  unfold bf1B iblk0
  funext y
  rw [View.read_apply]
  show V c main_v12 _ = V c main_v12 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega
theorem wf2B_eq (c : Dev nD) (t : Fin cfg0.N) : wf2B V c t = (V c main_arg7 : S128x128.Idx → EReal) := by
  obtain ⟨-, -, -, -, -, -, -, -, -, -, -, -, e0, e1, -⟩ := idx0 t
  unfold wf2B iblk0
  funext y
  rw [View.read_apply]
  show V c main_arg7 _ = V c main_arg7 _
  congr 1
  funext a
  apply Fin.ext
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega
theorem bf2B_eq (c : Dev nD) (t : Fin cfg0.N) : bf2B V c t = (V c main_v13 : S1x128.Idx → EReal) := by
  obtain ⟨-, -, -, -, -, -, -, -, -, -, -, -, -, -, e0, e1, -⟩ := idx0 t
  unfold bf2B iblk0
  funext y
  rw [View.read_apply]
  show V c main_v13 _ = V c main_v13 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- The whole-array function the first region computes, of the arrays it finds. -/
abbrev edgeG (c : Dev nD) : S640000x128.Idx → EReal :=
  msg (R := 640000) (V c main_v10) (V c main_arg2) (V c main_arg3) (fun j => V c main_v11 (ix2 (0 : Fin 1) j))
    (V c main_arg5) (fun j => V c main_v12 (ix2 (0 : Fin 1) j)) (V c main_arg7)
    (fun j => V c main_v13 (ix2 (0 : Fin 1) j))

/-- What point `t` of the first region writes back is block `t` of `edgeG`: the stored payload at row `p` is the
    message entry of row `p` of the blocks, which is that of row `5000·t + p` of the arrays. -/
theorem edge_flushed (c : Dev nD) (t : Fin cfg0.N) :
    (dat0 (F := Ideal) V c).flushed 8 t = ((cfg0.win 8).blk t).view.read (Elt Ideal) (edgeG V c) := by
  show (cfg0.win 8).cut (grid0.coords t) ((dat0 V c).after 8 t) = _
  rw [after0_8]
  unfold out0_8
  rw [View.canon_unit_zero hz]
  simp only [View.ld_unit_zero (S := S5000x128) hz, View.ld_unit_zero (S := S5000x16) hz,
    View.ld_unit_zero (S := S128x128) hz, View.ld_unit_zero (S := S16x128) hz, View.ld_unit_zero (S := S1x128) hz]
  obtain ⟨-, -, -, -, -, -, -, -, -, -, -, -, -, -, -, -, e0, e1⟩ := idx0 t
  funext j
  obtain ⟨p, q, rfl⟩ : ∃ (p : Fin 5000) (q : Fin 128), j = ix2 p q := ⟨j 0, j 1, eq_ix2 j⟩
  have hp : 5000 * t.val + p.val < 640000 := by
    have := t.isLt; have h : cfg0.N = 128 := N_0; have := p.isLt; omega
  show k0_pay1 (F := Ideal) (xgB V c t) (rbfB V c t) (w1B V c t) (wf1B V c t) (wf2B V c t) (bf1B V c t) (bf2B V c t) (b1B V c t) (ix2 p q)
      = edgeG V c (((cfg0.win 8).blk t).view.emb (ix2 p q))
  have hemb : ((cfg0.win 8).blk t).view.emb (ix2 p q) = (ix2 (⟨5000 * t.val + p.val, hp⟩ : Fin 640000) q : S640000x128.Idx) := by
    funext a
    apply Fin.ext
    match a with
    | ⟨0, _⟩ => show win0_8.index t (0 : Fin 2) * 5000 + 1 * p.val = 5000 * t.val + p.val; rw [e0]; omega
    | ⟨1, _⟩ => show win0_8.index t (1 : Fin 2) * 128 + 1 * q.val = q.val; rw [e1]; omega
  rw [hemb, pay_edge, w1B_eq, b1B_eq, wf1B_eq, bf1B_eq, wf2B_eq, bf2B_eq]
  exact msgAt_of_rows _ _ _ _ _ _ _ _ _ _ p ⟨5000 * t.val + p.val, hp⟩ q
    (fun k => xgB_apply V c t p k _ rfl) (fun r => rbfB_apply V c t p r _ rfl)

/-- An index of the message array is in point `t`'s block iff each coordinate is in the block's range. -/
theorem mem_blk0 (t : Fin cfg0.N) (i : S640000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v14).slice (win0_8.rect t)).set ↔ _
  rw [View.set_slice_whole, Rect.mem_set_unit]
  exact Iff.rfl

/-- Every index of the message array is in some point's block: row `r` is in block `r / 5000`. -/
theorem edge_cover (i : S640000x128.Idx) :
    ∃ t : Fin cfg0.N, (cfg0.win 8).flush t = true ∧ i ∈ ((cfg0.win 8).blk t).view.set := by
  have hi0 : (i 0).val < 640000 := (i 0).isLt
  have hi1 : (i 1).val < 128 := (i 1).isLt
  have hN : cfg0.N = 128 := N_0
  refine ⟨⟨(i 0).val / 5000, by rw [hN]; omega⟩, flush0_8 _, ?_⟩
  rw [mem_blk0]
  obtain ⟨-, -, -, -, -, -, -, -, -, -, -, -, -, -, -, -, e0, e1⟩ := idx0 ⟨(i 0).val / 5000, by rw [hN]; omega⟩
  intro a
  match a with
  | ⟨0, _⟩ =>
    show win0_8.index _ (0 : Fin 2) * 5000 ≤ (i 0).val ∧ (i 0).val < win0_8.index _ (0 : Fin 2) * 5000 + 5000
    rw [e0]; show (i 0).val / 5000 * 5000 ≤ (i 0).val ∧ (i 0).val < (i 0).val / 5000 * 5000 + 5000; omega
  | ⟨1, _⟩ =>
    show win0_8.index _ (1 : Fin 2) * 128 ≤ (i 1).val ∧ (i 1).val < win0_8.index _ (1 : Fin 2) * 128 + 128
    rw [e1]; omega

/-- After the first region the message array holds `msg` of the arrays the region found. -/
theorem edge_region (c : Dev nD) :
    (dat0 (F := Ideal) V c).arrAt 8 cfg0.N
      = msg (R := 640000) (V c main_v10) (V c main_arg2) (V c main_arg3) (fun j => V c main_v11 (ix2 (0 : Fin 1) j))
          (V c main_arg5) (fun j => V c main_v12 (ix2 (0 : Fin 1) j)) (V c main_arg7)
          (fun j => V c main_v13 (ix2 (0 : Fin 1) j)) :=
  (dat0 (F := Ideal) V c).arrAt_eq_of_cover 8 (edgeG V c) (fun t _ => edge_flushed V c t) (edge_cover)

/-! ## The second region: the last linear map over the aggregated node rows -/

/-- The block indices of the second region's windows at point `t`. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input blocks of the second region at point `t`, each at its literal shape. -/
abbrev aggB (c : Dev nD) (t : Fin cfg1.N) : Vec Ideal S5000x128 .f32 := iblk1 V c 0 t
abbrev w2B (c : Dev nD) (t : Fin cfg1.N) : Vec Ideal S128x128 .f32 := iblk1 V c 1 t
abbrev b2B (c : Dev nD) (t : Fin cfg1.N) : Vec Ideal S1x128 .f32 := iblk1 V c 2 t

/-- Row `p` of the aggregated-rows block at point `t` is row `5000·t + p` of the aggregated array. -/
theorem aggB_apply (c : Dev nD) (t : Fin cfg1.N) (p : Fin 5000) (k : Fin 128) (p' : Fin 100000)
    (hp : p'.val = 5000 * t.val + p.val) :
    aggB V c t (ix2 p k) = (V c main_v17 : S100000x128.Idx → EReal) (ix2 p' k) := by
  obtain ⟨e0, e1, -⟩ := idx1 t
  unfold aggB iblk1
  rw [View.read_apply]
  show V c main_v17 _ = V c main_v17 _
  congr 1
  funext a
  apply Fin.ext
  match a with
  | ⟨0, _⟩ => show win1_0.index t (0 : Fin 2) * 5000 + 1 * p.val = p'.val; rw [e0, hp]; omega
  | ⟨1, _⟩ => show win1_0.index t (1 : Fin 2) * 128 + 1 * k.val = k.val; rw [e1]; omega

theorem w2B_eq (c : Dev nD) (t : Fin cfg1.N) : w2B V c t = (V c main_arg9 : S128x128.Idx → EReal) := by
  obtain ⟨-, -, e0, e1, -⟩ := idx1 t
  unfold w2B iblk1
  funext y
  rw [View.read_apply]
  show V c main_arg9 _ = V c main_arg9 _
  congr 1
  funext a
  apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega
theorem b2B_eq (c : Dev nD) (t : Fin cfg1.N) : b2B V c t = (V c main_v18 : S1x128.Idx → EReal) := by
  obtain ⟨-, -, -, -, e0, e1, -⟩ := idx1 t
  unfold b2B iblk1
  funext y
  rw [View.read_apply]
  show V c main_v18 _ = V c main_v18 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The whole-array function the second region computes, of the arrays it finds. -/
abbrev nodeG (c : Dev nD) : S100000x128.Idx → EReal :=
  out (R := 100000) (V c main_v17) (V c main_arg9) (fun j => V c main_v18 (ix2 (0 : Fin 1) j))

/-- What point `t` of the second region writes back is block `t` of `nodeG`. -/
theorem node_flushed (c : Dev nD) (t : Fin cfg1.N) :
    (dat1 (F := Ideal) V c).flushed 3 t = ((cfg1.win 3).blk t).view.read (Elt Ideal) (nodeG V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  obtain ⟨-, -, -, -, -, -, e0, e1⟩ := idx1 t
  funext j
  obtain ⟨p, q, rfl⟩ : ∃ (p : Fin 5000) (q : Fin 128), j = ix2 p q := ⟨j 0, j 1, eq_ix2 j⟩
  have hp : 5000 * t.val + p.val < 100000 := by
    have := t.isLt; have h : cfg1.N = 20 := N_1; have := p.isLt; omega
  show k1_pay1 (F := Ideal) (aggB V c t) (w2B V c t) (b2B V c t) (ix2 p q)
      = nodeG V c (((cfg1.win 3).blk t).view.emb (ix2 p q))
  have hemb : ((cfg1.win 3).blk t).view.emb (ix2 p q) = (ix2 (⟨5000 * t.val + p.val, hp⟩ : Fin 100000) q : S100000x128.Idx) := by
    funext a
    apply Fin.ext
    match a with
    | ⟨0, _⟩ => show win1_3.index t (0 : Fin 2) * 5000 + 1 * p.val = 5000 * t.val + p.val; rw [e0]; omega
    | ⟨1, _⟩ => show win1_3.index t (1 : Fin 2) * 128 + 1 * q.val = q.val; rw [e1]; omega
  rw [hemb, pay_node, w2B_eq, b2B_eq]
  exact outAt_of_rows _ _ _ _ p ⟨5000 * t.val + p.val, hp⟩ q (fun k => aggB_apply V c t p k _ rfl)

/-- An index of the result array is in point `t`'s block iff each coordinate is in the block's range. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v19).slice (win1_3.rect t)).set ↔ _
  rw [View.set_slice_whole, Rect.mem_set_unit]
  exact Iff.rfl

/-- Every index of the result array is in some point's block: row `r` is in block `r / 5000`. -/
theorem node_cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_3 _, ?_⟩
  rw [mem_blk1]
  obtain ⟨-, -, -, -, -, -, e0, e1⟩ := idx1 ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e0]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e1]; omega

/-- After the second region the result array holds `out` of the arrays the region found. -/
theorem node_region (c : Dev nD) :
    (dat1 (F := Ideal) V c).arrAt 3 cfg1.N
      = out (R := 100000) (V c main_v17) (V c main_arg9) (fun j => V c main_v18 (ix2 (0 : Fin 1) j)) :=
  (dat1 (F := Ideal) V c).arrAt_eq_of_cover 3 (nodeG V c) (fun t _ => node_flushed V c t) (node_cover)

end Cert.KernelIdeal.Regions

end
-- ==== Proof.KernelHost.lean ====
/-
  What the host operations around the two grid regions leave in the buffers the regions read, as terms of the
  launch contents of the arguments.

  Before the first region: the source column of the edge list (a negative entry wrapped once by the number of
  nodes) gathers the node rows; three bias vectors are reshaped to one row each; the arrays no operation writes
  are as launched. Between the regions: the message array the first region left is scatter-added, by the
  destination column of the edge list, into an array of zeros; the last bias vector is reshaped to one row.
-/
import proofs.«163697_j89567247990894_1_alg».proof.Proof.Gen.KernelIdeal.Frame
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F]

/-- The source-node index column of the gather: row 1 of the edge list, a negative entry wrapped once by the
    number of nodes, as a `[640000, 1]` array of start indices. -/
def srcIdx (e : (⟨S2x640000, .i32⟩ : BufTy).Contents (Elt F)) : (⟨S640000x1, .i32⟩ : BufTy).Contents (Elt F) :=
  broadcastInDim S640000x1 ![0] bcast_S640000_S640000x1_0
    (select
      (cmpi .slt (shapeCast _ (extractStridedSlice S1x640000 ![1, 0] e slices_S2x640000_S1x640000_1_0) shapeCasts_S1x640000_S640000)
        (broadcastInDim S640000 ![] bcast_S_S640000 (constantI S_ 32 0#32)))
      (addi (shapeCast _ (extractStridedSlice S1x640000 ![1, 0] e slices_S2x640000_S1x640000_1_0) shapeCasts_S1x640000_S640000)
        (broadcastInDim S640000 ![] bcast_S_S640000 (constantI S_ 32 100000#32)))
      (shapeCast _ (extractStridedSlice S1x640000 ![1, 0] e slices_S2x640000_S1x640000_1_0) shapeCasts_S1x640000_S640000))

/-- The destination-node index column of the scatter-add: row 0 of the edge list as a `[640000, 1]` array. -/
def dstIdx (e : (⟨S2x640000, .i32⟩ : BufTy).Contents (Elt F)) : (⟨S640000x1, .i32⟩ : BufTy).Contents (Elt F) :=
  broadcastInDim S640000x1 ![0] bcast_S640000_S640000x1_0
    (shapeCast _ (extractStridedSlice S1x640000 ![0, 0] e slices_S2x640000_S1x640000_0_0) shapeCasts_S1x640000_S640000)

variable (m : (ℓ : Loc nD τ sig) → Buf (Elt F) ℓ) (ρ : Dev nD → PrngReg)

/-! ## What the first region finds: the host operations before it, read back -/

theorem V1_v10 (c : Dev nD) : V1 m ρ c main_v10
    = Host.gather gather_S100000x128_S640000x1_S640000x128_1_0_n_n_0_1_1128 (m ((c : Thread nD τ).loc main_arg0))
        (srcIdx (m ((c : Thread nD τ).loc main_arg1))) := by
  show StableHlo.after hostOps0 (W0 m ρ c) (Proc.devRef .tc main_v10) = _
  after_results
  unfold srcIdx
  rfl
theorem V1_arg2 (c : Dev nD) : V1 m ρ c main_arg2 = m ((c : Thread nD τ).loc main_arg2) :=
  calc V1 m ρ c main_arg2
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem V1_arg3 (c : Dev nD) : V1 m ρ c main_arg3 = m ((c : Thread nD τ).loc main_arg3) :=
  calc V1 m ρ c main_arg3
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem V1_arg5 (c : Dev nD) : V1 m ρ c main_arg5 = m ((c : Thread nD τ).loc main_arg5) :=
  calc V1 m ρ c main_arg5
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem V1_arg7 (c : Dev nD) : V1 m ρ c main_arg7 = m ((c : Thread nD τ).loc main_arg7) :=
  calc V1 m ρ c main_arg7
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem V1_v11 (c : Dev nD) : V1 m ρ c main_v11 = shapeCast _ (m ((c : Thread nD τ).loc main_arg4)) shapeCasts_S128_S1x128 := by
  show StableHlo.after hostOps0 (W0 m ρ c) (Proc.devRef .tc main_v11) = _
  after_results
  rfl
theorem V1_v12 (c : Dev nD) : V1 m ρ c main_v12 = shapeCast _ (m ((c : Thread nD τ).loc main_arg6)) shapeCasts_S128_S1x128 := by
  show StableHlo.after hostOps0 (W0 m ρ c) (Proc.devRef .tc main_v12) = _
  after_results
  rfl
theorem V1_v13 (c : Dev nD) : V1 m ρ c main_v13 = shapeCast _ (m ((c : Thread nD τ).loc main_arg8)) shapeCasts_S128_S1x128 := by
  show StableHlo.after hostOps0 (W0 m ρ c) (Proc.devRef .tc main_v13) = _
  after_results
  rfl

/-! ## What the second region finds: the first region's message array scatter-added by destination -/

/-- Row 0 of the edge list as a flat array of 640000 entries: what the operations before the first region leave
    in the buffer the scatter-add's index column is later broadcast from. -/
theorem W1_v1 (c : Dev nD) : W1 m ρ c (Proc.devRef .tc main_v1)
    = shapeCast _ (extractStridedSlice S1x640000 ![0, 0] (m ((c : Thread nD τ).loc main_arg1)) slices_S2x640000_S1x640000_0_0) shapeCasts_S1x640000_S640000 := by
  show StableHlo.after hostOps0 (W0 m ρ c) (Proc.devRef .tc main_v1) = _
  after_results
  rfl

/-- The first region has no window on that buffer, so it leaves the region as it entered. -/
theorem W2_v1 (c : Dev nD) : W2 m ρ c (Proc.devRef .tc main_v1)
    = shapeCast _ (extractStridedSlice S1x640000 ![0, 0] (m ((c : Thread nD τ).loc main_arg1)) slices_S2x640000_S1x640000_0_0) shapeCasts_S1x640000_S640000 :=
  (W2_of_ne m ρ c main_v1 (by decide)).trans (W1_v1 m ρ c)

/-- The message array is the first region's output window 8: at the region's exit it holds every block's
    write-back. -/
theorem W2_v14 (c : Dev nD) : W2 m ρ c (Proc.devRef .tc main_v14) = (dat0 (V1 m ρ) c).arrAt 8 cfg0.N :=
  W2_arr m ρ c 8

/-- The last bias vector is written by nothing before the second region's host operations: it is as launched. -/
theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem V3_v17 (c : Dev nD) : V3 m ρ c main_v17
    = Host.scatterAdd scatter_S100000x128_S640000x1_S640000x128_1_0_0_1
        (broadcastInDim S100000x128 ![] bcast_S_S100000x128 (constant S_ .f32 0x00000000#32))
        (dstIdx (m ((c : Thread nD τ).loc main_arg1)))
        ((dat0 (V1 m ρ) c).arrAt 8 cfg0.N) := by
  show StableHlo.after hostOps1 (W2 m ρ c) (Proc.devRef .tc main_v17) = _
  after_results
  rw [W2_v14, W2_v1]
  unfold dstIdx
  rfl
theorem V3_arg9 (c : Dev nD) : V3 m ρ c main_arg9 = m ((c : Thread nD τ).loc main_arg9) :=
  calc V3 m ρ c main_arg9
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
theorem V3_v18 (c : Dev nD) : V3 m ρ c main_v18 = shapeCast _ (m ((c : Thread nD τ).loc main_arg10)) shapeCasts_S128_S1x128 := by
  show StableHlo.after hostOps1 (W2 m ρ c) (Proc.devRef .tc main_v18) = _
  after_results
  rw [W2_arg10]
  rfl

end Cert.KernelIdeal.Host

end
-- ==== Proof.KernelValue.lean ====
/-
  The kernel program's result as ONE function of its eleven argument arrays, and its run stated with it.

  Reading @main backwards from the result: the second region leaves `out` of the aggregated node rows, the last
  weight matrix and the last bias; the aggregated rows are the scatter-add, by destination node, of the message
  array into zeros; the message array is what the first region leaves, `msg` of the gathered source rows, the edge
  features and the filter network's weights; and the bias rows the regions read are the bias vectors reshaped to
  one row, so entry `(0, j)` of a row is entry `j` of its vector (`bias_row`).
-/
import proofs.«163697_j89567247990894_1_alg».proof.Proof.KernelRegions
import proofs.«163697_j89567247990894_1_alg».proof.Proof.KernelLaunch
import proofs.«163697_j89567247990894_1_alg».proof.Proof.KernelHost
import Idealize.ShloMosaic.Lib.Pipeline.Value

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.FilterConv Cert.KernelIdeal.Host Cert.KernelIdeal.Regions

/-- A bias vector reshaped to one row: entry `(0, j)` of the row is entry `j` of the vector. -/
theorem bias_row {α : Type} (b : S128.Idx → α) (j : Fin 128) :
    shapeCast S1x128 b shapeCasts_S128_S1x128 (ix2 (0 : Fin 1) j) = b (ix1 j) :=
  shapeCast_apply b shapeCasts_S128_S1x128 (ix2 (0 : Fin 1) j) (ix1 j)
    (by rewrite [Shape.rowMajor_val_two, Shape.rowMajor_val_one]; show j.val = 0 * 128 + j.val; omega)

/-- The layer as one function of the arguments: gather the source rows, form the messages, add them into their
    destination rows, apply the last linear map. The gather and the scatter-add stay unopened. -/
def result (x : (⟨S100000x128, .f32⟩ : BufTy).Contents (Elt Ideal)) (e : (⟨S2x640000, .i32⟩ : BufTy).Contents (Elt Ideal))
    (rbf : (⟨S640000x16, .f32⟩ : BufTy).Contents (Elt Ideal)) (W1 : (⟨S128x128, .f32⟩ : BufTy).Contents (Elt Ideal))
    (b1 : (⟨S128, .f32⟩ : BufTy).Contents (Elt Ideal)) (Wf1 : (⟨S16x128, .f32⟩ : BufTy).Contents (Elt Ideal))
    (bf1 : (⟨S128, .f32⟩ : BufTy).Contents (Elt Ideal)) (Wf2 : (⟨S128x128, .f32⟩ : BufTy).Contents (Elt Ideal))
    (bf2 : (⟨S128, .f32⟩ : BufTy).Contents (Elt Ideal)) (W2 : (⟨S128x128, .f32⟩ : BufTy).Contents (Elt Ideal))
    (b2 : (⟨S128, .f32⟩ : BufTy).Contents (Elt Ideal)) : (⟨S100000x128, .f32⟩ : BufTy).Contents (Elt Ideal) :=
  out (R := 100000)
    (Host.scatterAdd (F := Ideal) scatter_S100000x128_S640000x1_S640000x128_1_0_0_1
      (broadcastInDim S100000x128 ![] bcast_S_S100000x128 (constant (F := Ideal) S_ .f32 0x00000000#32))
      (dstIdx e)
      (msg (R := 640000) (Host.gather gather_S100000x128_S640000x1_S640000x128_1_0_n_n_0_1_1128 x (srcIdx e))
        rbf W1 (fun j => b1 (ix1 j)) Wf1 (fun j => bf1 (ix1 j)) Wf2 (fun j => bf2 (ix1 j))))
    W2 (fun j => b2 (ix1 j))

variable (m : (ℓ : Loc nD τ sig) → Buf (Elt Ideal) ℓ) (ρ : Dev nD → PrngReg)

/-- The result buffer at the last boundary of @main is `result` of the launch contents of the arguments. -/
theorem W4_v19 (c : Dev nD) : W4 m ρ c (Proc.devRef .tc main_v19)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [show W4 m ρ c (Proc.devRef .tc main_v19) = (dat1 (V3 m ρ) c).arrAt 3 cfg1.N from W4_arr m ρ c 3]
  rw [node_region, V3_v17, V3_arg9, V3_v18, edge_region, V1_v10, V1_arg2, V1_arg3, V1_arg5, V1_arg7, V1_v11, V1_v12, V1_v13]
  unfold result
  simp only [bias_row]

/-- Every weakly fair execution of the kernel program ends with the result array at `result` of the arguments
    and the arguments as launched. -/
theorem run : θ_run defs (onTc (τ := τ) (main (F := Ideal))) ⟨m, fun _ => 0, ρ⟩ (fun r => ∀ c : Dev nD,
      r.2.mem ((c.tc : Thread nD τ).loc main_v19) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (W4_v19 m ρ c), (h c).2⟩) (Cert.KernelIdeal.Launch.run_named m ρ)

end Cert.KernelIdeal.Whole

end
-- ==== Proof.RefValue.lean ====
/-
  The reference read entry by entry over the extended reals: its message array is `msg` of its gathered rows, and
  its result is `out` of its scatter-added messages.

  Each stage is read at an index `(p, q)`: a matrix product is the sum over the contracted position `k` of row `p`
  of the left operand times column `q` of the right one, a bias vector broadcast along the rows is read at `q`,
  and the activation, which the reference spells `z · (1 / (1 + e^(-z)))`, is `silu z`. The gather and the
  scatter-add are never opened.
-/
import proofs.«163697_j89567247990894_1_alg».proof.Proof.Gen.ReferenceIdeal.Run
import proofs.«163697_j89567247990894_1_alg».proof.Proof.Gen.ReferenceIdeal.Read
import proofs.«163697_j89567247990894_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Cert.FilterConv

/-! ### The reference's composed index functions at an index given by its coordinates

Each stage of the reference reads its operands at an index computed from the result's index. At `ix2 p q` those
computed indices are again of coordinate form: a contraction reads row `p` of its left operand and column `q` of
its right operand at the contracted position `k`, and a bias vector broadcast along the rows is read at `q`. -/

theorem lidx20_at (p : Fin 640000) (q k : Fin 128) : lidx_main_v20 (ix2 p q) k = ix2 p k :=
  funext fun a => Fin.ext (by match a with | ⟨0, _⟩ => rfl | ⟨1, _⟩ => rfl)
theorem ridx20_at (p : Fin 640000) (q k : Fin 128) : ridx_main_v20 (ix2 p q) k = ix2 k q :=
  funext fun a => Fin.ext (by match a with | ⟨0, _⟩ => rfl | ⟨1, _⟩ => rfl)
theorem idx22_at (p : Fin 640000) (q : Fin 128) : idx_main_v21 (idx_main_v22 (ix2 p q)) = ix1 q :=
  funext fun a => Fin.ext (by match a with | ⟨0, _⟩ => rfl)

theorem lidx9_at (p : Fin 640000) (q k : Fin 128) : lidx_main_v9 (ix2 p q) k = ix2 p k :=
  funext fun a => Fin.ext (by match a with | ⟨0, _⟩ => rfl | ⟨1, _⟩ => rfl)
theorem ridx9_at (p : Fin 640000) (q k : Fin 128) : ridx_main_v9 (ix2 p q) k = ix2 k q :=
  funext fun a => Fin.ext (by match a with | ⟨0, _⟩ => rfl | ⟨1, _⟩ => rfl)
theorem idx11_at (p : Fin 640000) (q : Fin 128) : idx_main_v10 (idx_main_v11 (ix2 p q)) = ix1 q :=
  funext fun a => Fin.ext (by match a with | ⟨0, _⟩ => rfl)

theorem lidx4_at (p : Fin 640000) (k : Fin 128) (r : Fin 16) : lidx_main_v4 (ix2 p k) r = ix2 p r :=
  funext fun a => Fin.ext (by match a with | ⟨0, _⟩ => rfl | ⟨1, _⟩ => rfl)
theorem ridx4_at (p : Fin 640000) (k : Fin 128) (r : Fin 16) : ridx_main_v4 (ix2 p k) r = ix2 r k :=
  funext fun a => Fin.ext (by match a with | ⟨0, _⟩ => rfl | ⟨1, _⟩ => rfl)
theorem idx6_at (p : Fin 640000) (k : Fin 128) : idx_main_v5 (idx_main_v6 (ix2 p k)) = ix1 k :=
  funext fun a => Fin.ext (by match a with | ⟨0, _⟩ => rfl)

theorem lidx28_at (p : Fin 100000) (q k : Fin 128) : lidx_main_v28 (ix2 p q) k = ix2 p k :=
  funext fun a => Fin.ext (by match a with | ⟨0, _⟩ => rfl | ⟨1, _⟩ => rfl)
theorem ridx28_at (p : Fin 100000) (q k : Fin 128) : ridx_main_v28 (ix2 p q) k = ix2 k q :=
  funext fun a => Fin.ext (by match a with | ⟨0, _⟩ => rfl | ⟨1, _⟩ => rfl)
theorem idx30_at (p : Fin 100000) (q : Fin 128) : idx_main_v29 (idx_main_v30 (ix2 p q)) = ix1 q :=
  funext fun a => Fin.ext (by match a with | ⟨0, _⟩ => rfl)

/-! ### The stages of the message, entry by entry -/

/-- The projected gathered rows: `Σₖ xg[p,k]·W1[k,q] + b1[q]`. -/
theorem v23_at (x0 : (⟨S100000x128, .f32⟩ : BufTy).Contents (Elt Ideal)) (x1 : (⟨S2x640000, .i32⟩ : BufTy).Contents (Elt Ideal)) (x3 : (⟨S128x128, .f32⟩ : BufTy).Contents (Elt Ideal)) (x4 : (⟨S128, .f32⟩ : BufTy).Contents (Elt Ideal)) (p : Fin 640000) (q : Fin 128) :
    val_main_v23 (F := Ideal) x0 x1 x3 x4 (ix2 p q)
      = (∑ k : Fin 128, val_main_v19 (F := Ideal) x0 x1 (ix2 p k) * x3 (ix2 k q)) + x4 (ix1 q) := by
  rw [val_main_v23_apply, val_main_v20_apply, val_main_v22_apply, val_main_v21_apply, idx22_at, Ideal.addf_def]
  simp only [lidx20_at, ridx20_at]

/-- The filter network's first layer before the activation: `Σᵣ rbf[p,r]·Wf1[r,k] + bf1[k]`. -/
theorem v7_at (x2 : (⟨S640000x16, .f32⟩ : BufTy).Contents (Elt Ideal)) (x5 : (⟨S16x128, .f32⟩ : BufTy).Contents (Elt Ideal)) (x6 : (⟨S128, .f32⟩ : BufTy).Contents (Elt Ideal)) (p : Fin 640000) (k : Fin 128) :
    val_main_v7 (F := Ideal) x2 x5 x6 (ix2 p k)
      = (∑ r : Fin 16, x2 (ix2 p r) * x5 (ix2 r k)) + x6 (ix1 k) := by
  rw [val_main_v7_apply, val_main_v4_apply, val_main_v6_apply, val_main_v5_apply, idx6_at, Ideal.addf_def]
  simp only [lidx4_at, ridx4_at]

/-- The activation stage is `silu` of the first layer: the reference spells it as the quotient
    `z · (1 / (1 + e^(-z)))`, both ones being the float `1.0` broadcast from a scalar. -/
theorem v8_at (x2 : (⟨S640000x16, .f32⟩ : BufTy).Contents (Elt Ideal)) (x5 : (⟨S16x128, .f32⟩ : BufTy).Contents (Elt Ideal)) (x6 : (⟨S128, .f32⟩ : BufTy).Contents (Elt Ideal)) (p : Fin 640000) (k : Fin 128) :
    val_main_v8 (F := Ideal) x2 x5 x6 (ix2 p k)
      = silu ((∑ r : Fin 16, x2 (ix2 p r) * x5 (ix2 r k)) + x6 (ix1 k)) := by
  rw [val_main_v8_apply, val_main_call0_v5_apply, val_main_call0_v4_apply, val_main_call0_cst_0_apply,
    val_main_call0_v3_apply, val_main_call0_v2_apply, val_main_call0_cst_apply, val_main_call0_v1_apply,
    val_main_call0_v0_apply, v7_at]
  rw [Ideal.mulf_def, Ideal.hostDivf_def, Ideal.addf_def, Ideal.hostUnary_exp_def, Ideal.hostNegf_def, Ideal.negf_def,
    Ideal.ofBits_def]
  exact silu_of_quotient _

/-- The filter rows: `Σₖ silu(Σᵣ rbf[p,r]·Wf1[r,k] + bf1[k])·Wf2[k,q] + bf2[q]`. -/
theorem v12_at (x2 : (⟨S640000x16, .f32⟩ : BufTy).Contents (Elt Ideal)) (x5 : (⟨S16x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (p : Fin 640000) (q : Fin 128) :
    val_main_v12 (F := Ideal) x2 x5 x6 x7 x8 (ix2 p q)
      = (∑ k : Fin 128, silu ((∑ r : Fin 16, x2 (ix2 p r) * x5 (ix2 r k)) + x6 (ix1 k)) * x7 (ix2 k q)) + x8 (ix1 q) := by
  rw [val_main_v12_apply, val_main_v9_apply, val_main_v11_apply, val_main_v10_apply, idx11_at, Ideal.addf_def]
  simp only [lidx9_at, ridx9_at, v8_at]

/-- The reference's message array (projected gathered rows times the filter network's rows) is `msg` of the
    gathered rows, the edge features and the weights, the bias vectors read entry by entry. -/
theorem ref_msg (x0 : (⟨S100000x128, .f32⟩ : BufTy).Contents (Elt Ideal)) (x1 : (⟨S2x640000, .i32⟩ : BufTy).Contents (Elt Ideal)) (x2 : (⟨S640000x16, .f32⟩ : BufTy).Contents (Elt Ideal)) (x3 : (⟨S128x128, .f32⟩ : BufTy).Contents (Elt Ideal)) (x4 : (⟨S128, .f32⟩ : BufTy).Contents (Elt Ideal)) (x5 : (⟨S16x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v24 (F := Ideal) x0 x1 x2 x3 x4 x5 x6 x7 x8
      = msg (R := 640000) (val_main_v19 (F := Ideal) x0 x1) x2 x3 (fun j => x4 (ix1 j)) x5 (fun j => x6 (ix1 j)) x7
          (fun j => x8 (ix1 j)) := by
  funext i
  obtain ⟨p, q, rfl⟩ : ∃ (p : Fin 640000) (q : Fin 128), i = ix2 p q := ⟨i 0, i 1, eq_ix2 i⟩
  show _ = msgAt _ _ _ _ _ _ _ _ p q
  unfold msgAt
  rw [val_main_v24_apply, v23_at, v12_at, Ideal.mulf_def]

/-- The reference's result is `out` of its scatter-added messages. -/
theorem ref_out (x0 : (⟨S100000x128, .f32⟩ : BufTy).Contents (Elt Ideal)) (x1 : (⟨S2x640000, .i32⟩ : BufTy).Contents (Elt Ideal)) (x2 : (⟨S640000x16, .f32⟩ : BufTy).Contents (Elt Ideal)) (x3 : (⟨S128x128, .f32⟩ : BufTy).Contents (Elt Ideal)) (x4 : (⟨S128, .f32⟩ : BufTy).Contents (Elt Ideal)) (x5 : (⟨S16x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v31 (F := Ideal) x0 x1 x2 x3 x4 x5 x6 x7 x8 x9 x10
      = out (R := 100000) (val_main_v27 (F := Ideal) x0 x1 x2 x3 x4 x5 x6 x7 x8) x9 (fun j => x10 (ix1 j)) := by
  funext i
  obtain ⟨p, q, rfl⟩ : ∃ (p : Fin 100000) (q : Fin 128), i = ix2 p q := ⟨i 0, i 1, eq_ix2 i⟩
  show _ = outAt _ _ _ p q
  unfold outAt
  rw [val_main_v31_apply, val_main_v28_apply, val_main_v30_apply, val_main_v29_apply, idx30_at, Ideal.addf_def]
  simp only [lidx28_at, ridx28_at]

end Cert.ReferenceIdeal.RefValue

end
-- ==== Proof.Bridge.lean ====
/-
  The two programs compute one function of the arguments.

  The reference's result is `out` of its scatter-added messages, its messages `msg` of its gathered rows
  (the reference read entry by entry); the kernel program's result is `result`, the same two functions around the
  same gather and the same scatter-add. What is left is that the two programs spell the shared host operations —
  the index columns taken from the edge list, the gather, the zero array, the scatter-add — with the same terms.
-/
import proofs.«163697_j89567247990894_1_alg».proof.Proof.RefValue
import proofs.«163697_j89567247990894_1_alg».proof.Proof.KernelValue

noncomputable section

namespace Cert.Bridge

open Idealize.ShloMosaic Idealize.ShloMosaic.ValueIdx Cert.FilterConv

/-- The reference's scatter-added messages are the kernel program's: the same scatter-add of the same messages
    (`ref_msg`) by the same destination column into the same zeros, the gathered rows the same gather by the same
    source column. -/
theorem agg_eq (x0 : (⟨Cert.KernelIdeal.S100000x128, .f32⟩ : BufTy).Contents (Elt Ideal)) (x1 : (⟨Cert.KernelIdeal.S2x640000, .i32⟩ : BufTy).Contents (Elt Ideal)) (x2 : (⟨Cert.KernelIdeal.S640000x16, .f32⟩ : BufTy).Contents (Elt Ideal)) (x3 : (⟨Cert.KernelIdeal.S128x128, .f32⟩ : BufTy).Contents (Elt Ideal)) (x4 : (⟨Cert.KernelIdeal.S128, .f32⟩ : BufTy).Contents (Elt Ideal)) (x5 : (⟨Cert.KernelIdeal.S16x128, .f32⟩ : BufTy).Contents (Elt Ideal)) (x6 : (⟨Cert.KernelIdeal.S128, .f32⟩ : BufTy).Contents (Elt Ideal)) (x7 : (⟨Cert.KernelIdeal.S128x128, .f32⟩ : BufTy).Contents (Elt Ideal)) (x8 : (⟨Cert.KernelIdeal.S128, .f32⟩ : BufTy).Contents (Elt Ideal)) :
    Cert.ReferenceIdeal.Read.val_main_v27 (F := Ideal) x0 x1 x2 x3 x4 x5 x6 x7 x8
      = Host.scatterAdd (F := Ideal) Cert.KernelIdeal.scatter_S100000x128_S640000x1_S640000x128_1_0_0_1
          (broadcastInDim Cert.KernelIdeal.S100000x128 ![] Cert.KernelIdeal.Gen.bcast_S_S100000x128 (constant (F := Ideal) Cert.KernelIdeal.S_ .f32 0x00000000#32))
          (Cert.KernelIdeal.Host.dstIdx x1)
          (msg (R := 640000) (Host.gather Cert.KernelIdeal.gather_S100000x128_S640000x1_S640000x128_1_0_n_n_0_1_1128 x0 (Cert.KernelIdeal.Host.srcIdx x1))
            x2 x3 (fun j => x4 (ix1 j)) x5 (fun j => x6 (ix1 j)) x7 (fun j => x8 (ix1 j))) := by
  unfold Cert.ReferenceIdeal.Read.val_main_v27
  rw [Cert.ReferenceIdeal.RefValue.ref_msg]
  rfl

/-- The reference's result is `result` of the arguments. -/
theorem ref_result (x0 : (⟨Cert.KernelIdeal.S100000x128, .f32⟩ : BufTy).Contents (Elt Ideal)) (x1 : (⟨Cert.KernelIdeal.S2x640000, .i32⟩ : BufTy).Contents (Elt Ideal)) (x2 : (⟨Cert.KernelIdeal.S640000x16, .f32⟩ : BufTy).Contents (Elt Ideal)) (x3 : (⟨Cert.KernelIdeal.S128x128, .f32⟩ : BufTy).Contents (Elt Ideal)) (x4 : (⟨Cert.KernelIdeal.S128, .f32⟩ : BufTy).Contents (Elt Ideal)) (x5 : (⟨Cert.KernelIdeal.S16x128, .f32⟩ : BufTy).Contents (Elt Ideal)) (x6 : (⟨Cert.KernelIdeal.S128, .f32⟩ : BufTy).Contents (Elt Ideal)) (x7 : (⟨Cert.KernelIdeal.S128x128, .f32⟩ : BufTy).Contents (Elt Ideal)) (x8 : (⟨Cert.KernelIdeal.S128, .f32⟩ : BufTy).Contents (Elt Ideal)) (x9 : (⟨Cert.KernelIdeal.S128x128, .f32⟩ : BufTy).Contents (Elt Ideal)) (x10 : (⟨Cert.KernelIdeal.S128, .f32⟩ : BufTy).Contents (Elt Ideal)) :
    Cert.ReferenceIdeal.Read.val_main_v31 (F := Ideal) x0 x1 x2 x3 x4 x5 x6 x7 x8 x9 x10
      = Cert.KernelIdeal.Whole.result x0 x1 x2 x3 x4 x5 x6 x7 x8 x9 x10 := by
  rw [Cert.ReferenceIdeal.RefValue.ref_out, agg_eq]
  rfl

end Cert.Bridge

end
-- ==== Proof.lean ====
/-
  A continuous-filter convolution layer on a graph of 100000 nodes and 640000 edges, 128 channels: for every edge
  the source node's feature row is gathered and projected (`x[col]·W1 + b1`), the edge's 16 radial-basis features go
  through a two-layer filter network (`silu(rbf·Wf1 + bf1)·Wf2 + bf2`, with `silu z = z·σ(z)`), the two rows are
  multiplied entry by entry into the edge's message, the messages are summed into their destination nodes, and
  the node rows go through a last linear map (`·W2 + b2`).

  The kernel program computes the messages in a grid region over 128 blocks of 5000 edges and the last linear
  map in a grid region over 20 blocks of 5000 nodes, its matrix products taken on operands narrowed to a shorter
  float format and accumulated from zero; the gather and the scatter-add stay host operations, the same ones the
  reference applies. Over the extended reals a narrowing is the identity, a product accumulated from zero is the
  plain sum of products, and the logistic function is the quotient `1 / (1 + e^(-z))` the reference spells out;
  both the message and the last linear map are row-local, so working block by block changes nothing. Hence both
  programs end with their result array at ONE function of the eleven arguments (`Cert.KernelIdeal.Whole.result`):
  no law of arithmetic beyond these identities is used, and the precondition (finite inputs) is never opened.

  The three frame claims: the two kernel programs' are their region-by-region frame certificates; the
  reference's is its run with the result dropped. The idealization rewrote no operation, so `preserves` is trivial.
-/
import proofs.«163697_j89567247990894_1_alg».proof.Defs
import proofs.«163697_j89567247990894_1_alg».proof.Proof.Gen.Kernel
import proofs.«163697_j89567247990894_1_alg».proof.Proof.Gen.Kernel.Frame
import proofs.«163697_j89567247990894_1_alg».proof.Proof.Gen.KernelIdeal
import proofs.«163697_j89567247990894_1_alg».proof.Proof.Gen.KernelIdeal.Frame
import proofs.«163697_j89567247990894_1_alg».proof.Proof.Gen.ReferenceIdeal
import proofs.«163697_j89567247990894_1_alg».proof.Proof.Gen.ReferenceIdeal.Run
import proofs.«163697_j89567247990894_1_alg».proof.Proof.Gen.ReferenceIdeal.Read
import proofs.«163697_j89567247990894_1_alg».proof.Proof.Gen.Pre_finite_inputs
import proofs.«163697_j89567247990894_1_alg».proof.Proof.KernelValue
import proofs.«163697_j89567247990894_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with their result array at `result` of the
    arguments: the kernel program by its two regions read as whole-array functions around the shared host
    operations, the reference by its operations read entry by entry. -/
theorem algebraic : Cert.algebraic_KernelIdeal_ReferenceIdeal := by
  intro m ρ m' ρ' _ hagree
  refine ⟨fun c => Cert.KernelIdeal.Whole.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [a0, a1, a2, a3, a4, a5, a6, a7, a8, a9, a10, Cert.ReferenceIdeal.Read.val_main_v31_eq]
  exact Cert.Bridge.ref_result _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
